-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel

variable [Facts]

def fn {F : FTy → Type} [FloatOps F] (main_arg0 : FVec F S8x256x64x64 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  main_v3
-- ==== Kernel.lean ====
abbrev S8x256x64x64 : Shape := ⟨4, ![8, 256, 64, 64]⟩
abbrev S8x256x4096 : Shape := ⟨3, ![8, 256, 4096]⟩
abbrev S8x4096x4096 : Shape := ⟨3, ![8, 4096, 4096]⟩
abbrev S1x256x1024 : Shape := ⟨3, ![1, 256, 1024]⟩
abbrev S1x1024x1024 : Shape := ⟨3, ![1, 1024, 1024]⟩
abbrev S256x1024 : Shape := ⟨2, ![256, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x256x64x64, .f32⟩
  | .hbm, ⟨1, _⟩ => ⟨S8x256x4096, .f32⟩
  | .hbm, ⟨2, _⟩ => ⟨S8x4096x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024x1024, .f32⟩
  | .local _ .vmem, ⟨5, _⟩ => ⟨S1x1024x1024, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S8x256x64x64_S8x256x4096 : S8x256x64x64.ShapeCasts S8x256x4096
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S1024 : S256x1024.Reduces [0] S1024
  shapeCasts_S1024_S1x1024 : S1024.ShapeCasts S1x1024
  transposes_S1x1024_p1_0_S1024x1 : S1x1024.Transposes [1, 0] S1024x1
  bitsLt_bf16_f32 : FTy.bits .bf16 < FTy.bits .f32
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S256x1024_S256x1024_S1024x1024_0_0_1_1_n_n_wf : DotDims.WF S256x1024 S256x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x256x4096.size a
  hwx0_0 : ∀ i : grid0.Coords, EltTy.bits .f32 = 32 ∨ (Rect.block (s := S8x256x4096) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x256x4096.size a
  hwx0_1 : ∀ i : grid0.Coords, EltTy.bits .f32 = 32 ∨ (Rect.block (s := S8x256x4096) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x4096.size a
  hwx0_2 : ∀ i : grid0.Coords, EltTy.bits .f32 = 32 ∨ (Rect.block (s := S8x4096x4096) S1x1024x1024.size (cc0_transform_2 i) (hinb0_2 i)).WholeWords (EltTy.packing .f32)

variable [Facts₀]

def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x256x4096 : Shape := ⟨3, ![8, 256, 4096]⟩
abbrev S8x4096x256 : Shape := ⟨3, ![8, 4096, 256]⟩
abbrev S_ : Shape := ⟨0, ![]⟩
abbrev S8x4096 : Shape := ⟨2, ![8, 4096]⟩
abbrev S8x4096x4096 : Shape := ⟨3, ![8, 4096, 4096]⟩
abbrev S8x1x4096 : Shape := ⟨3, ![8, 1, 4096]⟩
abbrev S8x4096x1 : Shape := ⟨3, ![8, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x256x4096, .f32⟩
  | .hbm, ⟨2, _⟩ => ⟨S8x4096x256, .f32⟩
  | .hbm, ⟨3, _⟩ => ⟨S8x4096x256, .f32⟩
  | .hbm, ⟨4, _⟩ => ⟨S_, .f32⟩
  | .hbm, ⟨5, _⟩ => ⟨S8x4096, .f32⟩
  | .hbm, ⟨6, _⟩ => ⟨S8x4096x4096, .f32⟩
  | .hbm, ⟨7, _⟩ => ⟨S8x1x4096, .f32⟩
  | .hbm, ⟨8, _⟩ => ⟨S8x4096x1, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  transposes_S8x256x4096_S8x4096x256_0_2_1 : S8x256x4096.Transposes [0, 2, 1] S8x4096x256
  reducesTo_S8x4096x256_S8x4096_d2 : S8x4096x256.ReducesTo [2] S8x4096
  h_S_ : 0 < S_.numel
  bcast_S8x4096_S8x1x4096_0_2 : S8x4096.BroadcastsInDim S8x1x4096 (![0, 2] : Fin 2 → Fin S8x1x4096.rank)
  bcast_S8x4096_S8x4096x1_0_1 : S8x4096.BroadcastsInDim S8x4096x1 (![0, 1] : Fin 2 → Fin S8x4096x1.rank)
  bcast_S8x1x4096_S8x4096x4096_0_1_2 : S8x1x4096.BroadcastsInDim S8x4096x4096 (![0, 1, 2] : Fin 3 → Fin S8x4096x4096.rank)
  bcast_S8x4096x1_S8x4096x4096_0_1_2 : S8x4096x1.BroadcastsInDim S8x4096x4096 (![0, 1, 2] : Fin 3 → Fin S8x4096x4096.rank)
  bcast_S_S8x4096x4096 : S_.BroadcastsInDim S8x4096x4096 (![] : Fin 0 → Fin S8x4096x4096.rank)
  dot_S8x4096x256_S8x4096x256_S8x4096x4096_2_2_1_1_0_0_wf : DotDims.WF S8x4096x256 S8x4096x256 S8x4096x4096 [2] [2] [1] [1] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf

class Facts : Prop extends Facts₀ where

variable [Facts]
-- ==== Proof.KFrame.lean ====
/-
  The frame of the distance kernel, for every float instance: @main reshapes its argument and enters one
  pipelined region over the grid 8 × 4 × 4; at point (b, i, j) the body reads two 256 × 1024 column tiles of
  batch b of ONE array (tile i as the row operand, tile j as the column operand) and writes the 1024 × 1024
  tile (i, j) of batch b of the result. The two input windows share their array, so the array's ownership is
  split in halves between them at the region's entry; the body only reads its input tiles, so each input
  staging buffer holds its tile at every point, fetched there or not; the output tile is stored whole at every
  point and written back. The run ends with the result array at the tiles the points wrote and the argument
  untouched.
-/
import proofs.«101415_j14499809591877_1_alg».proof.Proof.Gen.Kernel.Launch
import proofs.«101415_j14499809591877_1_alg».proof.Proof.Gen.Kernel.Skeleton
import proofs.«101415_j14499809591877_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its result only: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

/-! ## The windows' tiles -/

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its tile in place holds the tile at every point: where it is not fetched
    its tile index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output tile's buffer -/

abbrev rIn : Rect S1x256x1024 := Rect.unit (s := S1x256x1024) ![0, 0, 0] S1x256x1024.size inb_S1x256x1024_S1x256x1024_0_0_0
abbrev rOut : Rect S1x1024x1024 := Rect.unit (s := S1x1024x1024) ![0, 0, 0] S1x1024x1024.size inb_S1x1024x1024_S1x1024x1024_0_0_0

/-- The output buffer after the body: its one whole-tile store, of the body's value of the two input tiles. -/
def outTile (x0 : Vec F S1x256x1024 .f32) (x1 : Vec F S1x256x1024 .f32) : Vec F S1x1024x1024 .f32 :=
  View.canon [⟨rOut, k0_pay1 (View.ld x0 rIn) (View.ld x1 rIn)⟩]

/-- The store's rectangle is the whole tile. -/
theorem coverOut (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- On whole staging memrefs, the inputs' reading `x0`, `x1` and the output's anything, the body runs to the inputs'
    as they were and the output's at `outTile x0 x1`. -/
theorem sound_kernel (c : Dev nD) (E : Set ℕ) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole)
    (x0 : Vec F S1x256x1024 .f32) (x1 : Vec F S1x256x1024 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outTile x0 x1)) -∗ K ⟨⟩))
      ⊢ wp frame (wpE (defs₀ (F := F)) Variants.none c none) E (cc0__cdist_kernel i arg3 harg3 arg4 harg4 arg5 harg5) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- On core `c`: the arrays as the region finds them; after the body at point `t` each input buffer at its tile and
    the output buffer at `outTile` of the two; between points nothing but the core's scoped buffers that are no
    staging buffer; nothing owed; the shared array held in halves by its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outTile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The launch of the distance kernel's region and the frame claim, for every float instance. The two input
  windows read ONE array, so at the region's entry that array's ownership is split in halves, one per window
  (the body never writes an input), while the result array goes whole to the output window. Nothing but the
  argument array bypasses the region; it is read back at the end as the region found it.
-/
import proofs.«101415_j14499809591877_1_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- Each window's array at the region's entry, as a plain points-to of its buffer: window 0 holds the left half
    of the shared array, window 1 the right half, window 2 the result array whole. -/
theorem arr0_eq (c : Dev nD) :
    (((cfg0.win 0).arr.view.loc (c.tc : Thread nD τ)) ↦[(cfg0.win 0).arr.view.set]{(dats m 0 c).share 0} (dats m 0 c).arrAt 0 0 : sProp 𝕄)
      = (((c.tc : Thread nD τ).loc main_v0) ↦{fullShare.left} V m c main_v0) := by
  rw [(arr_whole0 0).set_eq_univ, show (dats m 0 c).arrAt 0 0 = (dats m 0 c).A 0 from rfl, A_eq]
  rfl
theorem arr1_eq (c : Dev nD) :
    (((cfg0.win 1).arr.view.loc (c.tc : Thread nD τ)) ↦[(cfg0.win 1).arr.view.set]{(dats m 0 c).share 1} (dats m 0 c).arrAt 1 0 : sProp 𝕄)
      = (((c.tc : Thread nD τ).loc main_v0) ↦{fullShare.right} V m c main_v0) := by
  rw [(arr_whole0 1).set_eq_univ, show (dats m 0 c).arrAt 1 0 = (dats m 0 c).A 1 from rfl, A_eq]
  rfl
theorem arr2_eq (c : Dev nD) :
    (((cfg0.win 2).arr.view.loc (c.tc : Thread nD τ)) ↦[(cfg0.win 2).arr.view.set]{(dats m 0 c).share 2} (dats m 0 c).arrAt 2 0 : sProp 𝕄)
      = (((c.tc : Thread nD τ).loc main_v1) ↦{fullShare} V m c main_v1) := by
  rw [(arr_whole0 2).set_eq_univ, show (dats m 0 c).arrAt 2 0 = (dats m 0 c).A 2 from rfl, A_eq]
  rfl

/-- At the region's entry the two buffers behind the windows' arrays, each held whole, make the windows' arrays:
    the shared input array is split in halves between its two windows, the result array goes to its window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c.tc : Thread nD τ).loc main_v0) ↦{fullShare} V m c main_v0) ∗ (((c.tc : Thread nD τ).loc main_v1) ↦{fullShare} V m c main_v1)) := by
    unfold Pipeline.arrBufs
    exact bigSep_eq_bigSepL_of_eq [main_v0, main_v1] (by decide) (by decide) _
  rw [e]
  unfold Dat.arrays
  rw [bigSep_W0, arr0_eq, arr1_eq, arr2_eq]
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

set_option backward.isDefEq.respectTransparency.types false in
/-- Every weakly fair execution of @main terminates; at the end every window's array holds what the write-backs
    left (an input array its entry contents) and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => show iprop(emp ∗ Pipeline.scopedRest spec0 c) ⊢ Pipeline.scopedRest spec0 c from by
      iintro ⟨-, H⟩; iexact H)
    (hout := fun c => show Pipeline.scopedRest spec0 c ⊢ iprop(emp ∗ Pipeline.scopedRest spec0 c) from by
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- The frame: the run terminates and the argument array ends as launched (no window stages it, and the reshape
    before the region does not write it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 rfl (by decide))).trans (V_main_arg0 m c))
    (run_main m ρ)

end Cert.Kernel.Hand

end
-- ==== Proof.KIFrame.lean ====
/-
  The frame of the distance kernel, for every float instance: @main reshapes its argument and enters one
  pipelined region over the grid 8 × 4 × 4; at point (b, i, j) the body reads two 256 × 1024 column tiles of
  batch b of ONE array (tile i as the row operand, tile j as the column operand) and writes the 1024 × 1024
  tile (i, j) of batch b of the result. The two input windows share their array, so the array's ownership is
  split in halves between them at the region's entry; the body only reads its input tiles, so each input
  staging buffer holds its tile at every point, fetched there or not; the output tile is stored whole at every
  point and written back. The run ends with the result array at the tiles the points wrote and the argument
  untouched.
-/
import proofs.«101415_j14499809591877_1_alg».proof.Proof.Gen.KernelIdeal.Launch
import proofs.«101415_j14499809591877_1_alg».proof.Proof.Gen.KernelIdeal.Skeleton
import proofs.«101415_j14499809591877_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the reshape. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its result only: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

/-! ## The windows' tiles -/

/-- Window `w`'s tile at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its tile in place holds the tile at every point: where it is not fetched
    its tile index has not moved since the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output tile's buffer -/

abbrev rIn : Rect S1x256x1024 := Rect.unit (s := S1x256x1024) ![0, 0, 0] S1x256x1024.size inb_S1x256x1024_S1x256x1024_0_0_0
abbrev rOut : Rect S1x1024x1024 := Rect.unit (s := S1x1024x1024) ![0, 0, 0] S1x1024x1024.size inb_S1x1024x1024_S1x1024x1024_0_0_0

/-- The output buffer after the body: its one whole-tile store, of the body's value of the two input tiles. -/
def outTile (x0 : Vec F S1x256x1024 .f32) (x1 : Vec F S1x256x1024 .f32) : Vec F S1x1024x1024 .f32 :=
  View.canon [⟨rOut, k0_pay1 (View.ld x0 rIn) (View.ld x1 rIn)⟩]

/-- The store's rectangle is the whole tile. -/
theorem coverOut (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- On whole staging memrefs, the inputs' reading `x0`, `x1` and the output's anything, the body runs to the inputs'
    as they were and the output's at `outTile x0 x1`. -/
theorem sound_kernel (c : Dev nD) (E : Set ℕ) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x1024x1024 .f32) (harg5 : arg5.IsWhole)
    (x0 : Vec F S1x256x1024 .f32) (x1 : Vec F S1x256x1024 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outTile x0 x1)) -∗ K ⟨⟩))
      ⊢ wp frame (wpE (defs₀ (F := F)) Variants.none c none) E (cc0__cdist_kernel i arg3 harg3 arg4 harg4 arg5 harg5) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- On core `c`: the arrays as the region finds them; after the body at point `t` each input buffer at its tile and
    the output buffer at `outTile` of the two; between points nothing but the core's scoped buffers that are no
    staging buffer; nothing owed; the shared array held in halves by its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outTile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch of the distance kernel's region and the frame claim, for every float instance. The two input
  windows read ONE array, so at the region's entry that array's ownership is split in halves, one per window
  (the body never writes an input), while the result array goes whole to the output window. Nothing but the
  argument array bypasses the region; it is read back at the end as the region found it.
-/
import proofs.«101415_j14499809591877_1_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- Each window's array at the region's entry, as a plain points-to of its buffer: window 0 holds the left half
    of the shared array, window 1 the right half, window 2 the result array whole. -/
theorem arr0_eq (c : Dev nD) :
    (((cfg0.win 0).arr.view.loc (c.tc : Thread nD τ)) ↦[(cfg0.win 0).arr.view.set]{(dats m 0 c).share 0} (dats m 0 c).arrAt 0 0 : sProp 𝕄)
      = (((c.tc : Thread nD τ).loc main_v0) ↦{fullShare.left} V m c main_v0) := by
  rw [(arr_whole0 0).set_eq_univ, show (dats m 0 c).arrAt 0 0 = (dats m 0 c).A 0 from rfl, A_eq]
  rfl
theorem arr1_eq (c : Dev nD) :
    (((cfg0.win 1).arr.view.loc (c.tc : Thread nD τ)) ↦[(cfg0.win 1).arr.view.set]{(dats m 0 c).share 1} (dats m 0 c).arrAt 1 0 : sProp 𝕄)
      = (((c.tc : Thread nD τ).loc main_v0) ↦{fullShare.right} V m c main_v0) := by
  rw [(arr_whole0 1).set_eq_univ, show (dats m 0 c).arrAt 1 0 = (dats m 0 c).A 1 from rfl, A_eq]
  rfl
theorem arr2_eq (c : Dev nD) :
    (((cfg0.win 2).arr.view.loc (c.tc : Thread nD τ)) ↦[(cfg0.win 2).arr.view.set]{(dats m 0 c).share 2} (dats m 0 c).arrAt 2 0 : sProp 𝕄)
      = (((c.tc : Thread nD τ).loc main_v1) ↦{fullShare} V m c main_v1) := by
  rw [(arr_whole0 2).set_eq_univ, show (dats m 0 c).arrAt 2 0 = (dats m 0 c).A 2 from rfl, A_eq]
  rfl

/-- At the region's entry the two buffers behind the windows' arrays, each held whole, make the windows' arrays:
    the shared input array is split in halves between its two windows, the result array goes to its window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c.tc : Thread nD τ).loc main_v0) ↦{fullShare} V m c main_v0) ∗ (((c.tc : Thread nD τ).loc main_v1) ↦{fullShare} V m c main_v1)) := by
    unfold Pipeline.arrBufs
    exact bigSep_eq_bigSepL_of_eq [main_v0, main_v1] (by decide) (by decide) _
  rw [e]
  unfold Dat.arrays
  rw [bigSep_W0, arr0_eq, arr1_eq, arr2_eq]
  iintro ⟨H0, H1⟩
  ihave H0' := (pointsTo_share (PosShare.mem_left_op_right fullShare)).1 $$ H0
  icases H0' with ⟨Hl, Hr⟩
  isplitl [Hl]; · iexact Hl
  isplitl [Hr]; · iexact Hr
  iexact H1

set_option backward.isDefEq.respectTransparency.types false in
/-- Every weakly fair execution of @main terminates; at the end every window's array holds what the write-backs
    left (an input array its entry contents) and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => show iprop(emp ∗ Pipeline.scopedRest spec0 c) ⊢ Pipeline.scopedRest spec0 c from by
      iintro ⟨-, H⟩; iexact H)
    (hout := fun c => show Pipeline.scopedRest spec0 c ⊢ iprop(emp ∗ Pipeline.scopedRest spec0 c) from by
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- The frame: the run terminates and the argument array ends as launched (no window stages it, and the reshape
    before the region does not write it). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 rfl (by decide))).trans (V_main_arg0 m c))
    (run_main m ρ)

end Cert.KernelIdeal.Hand

end
-- ==== Proof.Spec.lean ====
/-
  The function both programs compute, stated once over the reshaped feature array.

  For a batch b the N = 4096 points are the columns of the 256 × 4096 slab y[b, ·, ·]. The squared norm of
  point n is Σ_k y[b,k,n]², the Gram entry of points n and m is Σ_k y[b,k,n]·y[b,k,m], and the pairwise
  squared distance is (|n|² + |m|²) − 2·⟨n, m⟩, on the extended reals, with the factor the float literal 2.0
  as both programs write it (never evaluated: the same word on both sides).
-/
import Idealize.ShloMosaic.PureOps.Ideal
import Idealize.ShloMosaic.Lib.ValueIdx

noncomputable section

namespace Cert.Dist

open Idealize.ShloMosaic Idealize.ShloMosaic.ValueIdx

/-- The float literal 2.0 (the word both programs print). -/
abbrev two : EReal := Ideal.ofBits .f32 0x40000000#32

/-- Squared norm of column `n` of batch `b`. -/
def sq (y : (⟨3, ![8, 256, 4096]⟩ : Shape).Idx → EReal) (b : Fin 8) (n : Fin 4096) : EReal :=
  ∑ k : Fin 256, y (ix3 b k n) * y (ix3 b k n)

/-- Inner product of columns `n` and `m` of batch `b`. -/
def gram (y : (⟨3, ![8, 256, 4096]⟩ : Shape).Idx → EReal) (b : Fin 8) (n m : Fin 4096) : EReal :=
  ∑ k : Fin 256, y (ix3 b k n) * y (ix3 b k m)

/-- Pairwise squared distances of the columns, batch by batch. -/
def dist (y : (⟨3, ![8, 256, 4096]⟩ : Shape).Idx → EReal) : (⟨3, ![8, 4096, 4096]⟩ : Shape).Idx → EReal :=
  fun i => (sq y (i 0) (i 1) + sq y (i 0) (i 2)) - two * gram y (i 0) (i 1) (i 2)

theorem dist_ix3 (y : (⟨3, ![8, 256, 4096]⟩ : Shape).Idx → EReal) (b : Fin 8) (n m : Fin 4096) :
    dist y (ix3 b n m) = (sq y b n + sq y b m) - two * gram y b n m := rfl

/-- The same function of two 256 × 1024 column blocks: entry (p, q) pairs column `p` of the first block with
    column `q` of the second. -/
def blockDist (x0 x1 : (⟨3, ![1, 256, 1024]⟩ : Shape).Idx → EReal) : (⟨3, ![1, 1024, 1024]⟩ : Shape).Idx → EReal :=
  fun j => ((∑ k : Fin 256, x0 (ix3 0 k (j 1)) * x0 (ix3 0 k (j 1))) + (∑ k : Fin 256, x1 (ix3 0 k (j 2)) * x1 (ix3 0 k (j 2))))
    - two * ∑ k : Fin 256, x0 (ix3 0 k (j 1)) * x1 (ix3 0 k (j 2))

theorem blockDist_ix3 (x0 x1 : (⟨3, ![1, 256, 1024]⟩ : Shape).Idx → EReal) (p q : Fin 1024) :
    blockDist x0 x1 (ix3 0 p q)
      = ((∑ k : Fin 256, x0 (ix3 0 k p) * x0 (ix3 0 k p)) + (∑ k : Fin 256, x1 (ix3 0 k q) * x1 (ix3 0 k q)))
        - two * ∑ k : Fin 256, x0 (ix3 0 k p) * x1 (ix3 0 k q) := rfl

end Cert.Dist

end
-- ==== Proof.PayloadAt.lean ====
/-
  The kernel body's stored value, read at an index: for column blocks x0 (the row tile) and x1 (the column tile)
  the body stores, at (p, q), the squared norm of column p of x0 plus the squared norm of column q of x1 minus
  twice their inner product.
-/
import proofs.«101415_j14499809591877_1_alg».proof.Proof.Gen.KernelIdeal.Skeleton
import proofs.«101415_j14499809591877_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Dist.Kernel

open Idealize.ShloMosaic Idealize.ShloMosaic.ValueIdx Cert.KernelIdeal Cert.KernelIdeal.Gen

/-! ## The row sum -/

/-- Row `k` put back into the column index `c` is the matrix index `(k, c)`. -/
theorem lift_row (c : Fin 1024) (k : Fin 256) :
    reduces_S256x1024_S1024.lift (ix1 c) k = ix2 k c := by
  funext a
  refine Fin.ext ?_
  match a with
  | ⟨0, _⟩ => rfl
  | ⟨1, _⟩ => rfl

/-- The sum over the 256 rows of the squared entries of a block, read at column `c`: the squared norm of that
    column. -/
theorem colSq_apply (x : Vec Ideal S1x256x1024 .f32) (c : Fin 1024) :
    multiReduction (F := Ideal) .add [0] S1024
        (mulf (shapeCast S256x1024 x shapeCasts_S1x256x1024_S256x1024)
          (shapeCast S256x1024 x shapeCasts_S1x256x1024_S256x1024))
        0x00000000#32 reduces_S256x1024_S1024 (.inl rfl) rfl (ix1 c)
      = ∑ k : Fin 256, x (ix3 0 k c) * x (ix3 0 k c) := by
  refine (Ideal.multiReduction_add_single _ _ reduces_S256x1024_S1024 _ _ (ix1 c)).trans ?_
  refine Finset.sum_congr rfl fun (k : Fin 256) _ => ?_
  rw [mulf_apply, lift_row c k, shapeCast_1ab_ab_apply]

/-! ## The product of the two blocks over their common row axis -/

/-- The left operand's axis 0 is the contracted one. -/
theorem lhs_gram_0 (i : S1024x1024.Idx) (q : dot_S256x1024_S256x1024_S1024x1024_0_0_1_1_n_n.contr.Idx) :
    (dot_S256x1024_S256x1024_S1024x1024_0_0_1_1_n_n.lhsIdx i q 0).val = (q ⟨0, by decide⟩).val :=
  dot_S256x1024_S256x1024_S1024x1024_0_0_1_1_n_n.lhsIdx_val_of_single rfl i q
/-- The left operand's axis 1 is the result's row. -/
theorem lhs_gram_1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
/-- The right operand's axis 0 is the contracted one. -/
theorem rhs_gram_0 (i : S1024x1024.Idx) (q : dot_S256x1024_S256x1024_S1024x1024_0_0_1_1_n_n.contr.Idx) :
    (dot_S256x1024_S256x1024_S1024x1024_0_0_1_1_n_n.rhsIdx i q 0).val = (q ⟨0, by decide⟩).val :=
  dot_S256x1024_S256x1024_S1024x1024_0_0_1_1_n_n.rhsIdx_val_of_single rfl i q
/-- The right operand's axis 1 is the result's column. -/
theorem rhs_gram_1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

/-- The product contracting the row axis of both blocks, accumulated into zero, read at `(p, q)`: the inner
    product of column `p` of the first with column `q` of the second. -/
theorem gram_apply (a b : FVec Ideal S256x1024 .bf16) (p q : Fin 1024) :
    matmul (F := Ideal) dot_S256x1024_S256x1024_S1024x1024_0_0_1_1_n_n none a b
        (constant S1024x1024 .f32 0x00000000#32) (ix2 p q)
      = ∑ k : Fin 256, a (ix2 k p) * b (ix2 k q) := by
  simp only [matmul]
  rw [Ideal.matmul_constant_zero_apply, ← Equiv.sum_comp (ValueIdx.contrEquiv1 dot_S256x1024_S256x1024_S1024x1024_0_0_1_1_n_n 256 rfl rfl).symm]
  refine Finset.sum_congr rfl fun k _ => ?_
  have hk := ValueIdx.contrEquiv1_symm_val dot_S256x1024_S256x1024_S1024x1024_0_0_1_1_n_n 256 rfl rfl k
  have el : dot_S256x1024_S256x1024_S1024x1024_0_0_1_1_n_n.lhsIdx (ix2 p q) ((ValueIdx.contrEquiv1 dot_S256x1024_S256x1024_S1024x1024_0_0_1_1_n_n 256 rfl rfl).symm k) = ix2 k p := funext fun c => Fin.ext (by
    match c with
    | ⟨0, _⟩ => exact (lhs_gram_0 _ _).trans hk
    | ⟨1, _⟩ => exact lhs_gram_1 _ _)
  have er : dot_S256x1024_S256x1024_S1024x1024_0_0_1_1_n_n.rhsIdx (ix2 p q) ((ValueIdx.contrEquiv1 dot_S256x1024_S256x1024_S1024x1024_0_0_1_1_n_n 256 rfl rfl).symm k) = ix2 k q := funext fun c => Fin.ext (by
    match c with
    | ⟨0, _⟩ => exact (rhs_gram_0 _ _).trans hk
    | ⟨1, _⟩ => exact rhs_gram_1 _ _)
  rw [el, er]

/-! ## A column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stored value -/

/-- The product of the two blocks as the body forms it (each block with its unit axis dropped and narrowed to the
    matrix unit's input format, which changes nothing on the extended reals), read at `(p, q)`. -/
theorem gramBlocks_apply (x0 x1 : Vec Ideal S1x256x1024 .f32) (p q : Fin 1024) :
    matmul (F := Ideal) dot_S256x1024_S256x1024_S1024x1024_0_0_1_1_n_n none
        (truncf .bf16 (shapeCast S256x1024 x0 shapeCasts_S1x256x1024_S256x1024) bitsLt_bf16_f32)
        (truncf .bf16 (shapeCast S256x1024 x1 shapeCasts_S1x256x1024_S256x1024) bitsLt_bf16_f32)
        (constant S1024x1024 .f32 0x00000000#32) (ix2 p q)
      = ∑ k : Fin 256, x0 (ix3 0 k p) * x1 (ix3 0 k q) := by
  refine (gram_apply _ _ p q).trans (Finset.sum_congr rfl fun k _ => ?_)
  rw [truncf_apply, truncf_apply, shapeCast_1ab_ab_apply, shapeCast_1ab_ab_apply]

theorem payload_eq (x0 x1 : Vec Ideal S1x256x1024 .f32) :
    k0_pay1 (F := Ideal) x0 x1 = Cert.Dist.blockDist x0 x1 := by
  funext j
  obtain ⟨u, p, q, rfl⟩ : ∃ (u : Fin 1) (p q : Fin 1024), j = ix3 u p q := ⟨j 0, j 1, j 2, eq_ix3 j⟩
  obtain rfl : u = 0 := Subsingleton.elim _ _
  rw [Cert.Dist.blockDist_ix3]
  unfold k0_pay1
  rw [shapeCast_ab_1ab_apply, subf_apply, addf_apply, mulf_apply, broadcast_apply,
    broadcastTo_a1_ab_apply, transpose_ix2_apply, shapeCast_a_1a_apply, colSq_apply,
    broadcastTo_1b_ab_apply, shapeCast_a_1a_apply, colSq_apply, gramBlocks_apply]
  rfl

end Cert.Dist.Kernel

end
-- ==== Proof.KIValue.lean ====
/-
  What the distance kernel leaves in its result array, at the ideal instance.

  At grid point (b, i, j) the body stores, into the 1024 × 1024 tile (i, j) of batch b, the squared norm of each
  column of the row tile plus the squared norm of each column of the column tile minus twice their inner
  products. Column p of row tile i is column i·1024 + p of the batch's 256 × 4096 slab, and likewise for the
  column tile, so the tile is exactly tile (i, j) of the pairwise squared distances of the slab's columns. The
  128 tiles are written back once each and cover the array, so the whole array ends at that function of the
  reshaped argument.
-/
import proofs.«101415_j14499809591877_1_alg».proof.Proof.KILaunch
import proofs.«101415_j14499809591877_1_alg».proof.Proof.PayloadAt
import proofs.«101415_j14499809591877_1_alg».proof.Proof.Spec
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-- The printed index maps over the grid: both input tiles are in the output tile's batch and span all 256 rows;
    the row operand's column tile is the output's row tile, the column operand's the output's column tile. -/
theorem idx_facts : ∀ t : Fin cfg0.N,
    win0_0.index t (0 : Fin 3) = win0_2.index t (0 : Fin 3) ∧ win0_0.index t (1 : Fin 3) = 0
    ∧ win0_0.index t (2 : Fin 3) = win0_2.index t (1 : Fin 3)
    ∧ win0_1.index t (0 : Fin 3) = win0_2.index t (0 : Fin 3) ∧ win0_1.index t (1 : Fin 3) = 0
    ∧ win0_1.index t (2 : Fin 3) = win0_2.index t (2 : Fin 3) :=
  (by decide +kernel : ∀ t : Fin grid0.N, _)

/-- Every tile of the result array is some point's. -/
theorem idx_onto : ∀ (q0 : Fin 8) (q1 : Fin 4) (q2 : Fin 4), ∃ t : Fin cfg0.N, win0_2.index t = ![q0.val, q1.val, q2.val] :=
  (by decide +kernel : ∀ (q0 : Fin 8) (q1 : Fin 4) (q2 : Fin 4), ∃ t : Fin grid0.N, win0_2.index t = ![q0.val, q1.val, q2.val])

/-- Where a tile's local index sits in its array. -/
abbrev embRow (t : Fin cfg0.N) (x : S1x256x1024.Idx) : S8x256x4096.Idx := ((cfg0.win 0).blk t).view.emb x
abbrev embCol (t : Fin cfg0.N) (x : S1x256x1024.Idx) : S8x256x4096.Idx := ((cfg0.win 1).blk t).view.emb x
abbrev embOut (t : Fin cfg0.N) (j : S1x1024x1024.Idx) : S8x4096x4096.Idx := ((cfg0.win 2).blk t).view.emb j

/-- Row k, column (j 1) of the row tile is row k, column (row coordinate of the output entry) of the batch's slab. -/
theorem embRow_eq (t : Fin cfg0.N) (j : S1x1024x1024.Idx) (k : Fin 256) :
    embRow t (ix3 0 k (j 1)) = ix3 (embOut t j 0) k (embOut t j 1) := by
  obtain ⟨e0, e1, e2, e3, e4, e5⟩ := idx_facts t
  funext a; apply Fin.ext
  match a with
  | ⟨0, _⟩ => show win0_0.index t (0 : Fin 3) * 1 + 1 * 0 = win0_2.index t (0 : Fin 3) * 1 + 1 * (j 0).val; have hj : (j 0).val < 1 := (j 0).isLt; omega
  | ⟨1, _⟩ => show win0_0.index t (1 : Fin 3) * 256 + 1 * k.val = k.val; omega
  | ⟨2, _⟩ => show win0_0.index t (2 : Fin 3) * 1024 + 1 * (j 1).val = win0_2.index t (1 : Fin 3) * 1024 + 1 * (j 1).val; omega

/-- Row k, column (j 2) of the column tile is row k, column (column coordinate of the output entry) of the slab. -/
theorem embCol_eq (t : Fin cfg0.N) (j : S1x1024x1024.Idx) (k : Fin 256) :
    embCol t (ix3 0 k (j 2)) = ix3 (embOut t j 0) k (embOut t j 2) := by
  obtain ⟨e0, e1, e2, e3, e4, e5⟩ := idx_facts t
  funext a; apply Fin.ext
  match a with
  | ⟨0, _⟩ => show win0_1.index t (0 : Fin 3) * 1 + 1 * 0 = win0_2.index t (0 : Fin 3) * 1 + 1 * (j 0).val; have hj : (j 0).val < 1 := (j 0).isLt; omega
  | ⟨1, _⟩ => show win0_1.index t (1 : Fin 3) * 256 + 1 * k.val = k.val; omega
  | ⟨2, _⟩ => show win0_1.index t (2 : Fin 3) * 1024 + 1 * (j 2).val = win0_2.index t (2 : Fin 3) * 1024 + 1 * (j 2).val; omega

/-- What point `t` writes back is tile `t` of the pairwise squared distances of the slab's columns. -/
theorem flushed_eq (c : Dev nD) (t : Fin cfg0.N) :
    (dats m 0 c).flushed 2 t = ((cfg0.win 2).blk t).view.read (Elt Ideal) (Cert.Dist.dist (V m c main_v0)) := by
  show (cfg0.win 2).cut (grid0.coords t) ((dats m 0 c).after 2 t) = _
  rw [after0_2]
  unfold outTile
  rw [View.canon_unit_zero zeros3]
  simp only [View.ld_unit_zero (S := S1x256x1024) zeros3]
  rw [Cert.Dist.Kernel.payload_eq]
  refine funext fun (j : S1x1024x1024.Idx) => ?_
  show Cert.Dist.blockDist (fun x => V m c main_v0 (embRow t x)) (fun x => V m c main_v0 (embCol t x)) j
    = Cert.Dist.dist (V m c main_v0) (embOut t j)
  have hr : ∀ k : Fin 256, embRow t (ix3 0 k (j 1)) = ix3 (embOut t j 0) k (embOut t j 1) := embRow_eq t j
  have hc : ∀ k : Fin 256, embCol t (ix3 0 k (j 2)) = ix3 (embOut t j 0) k (embOut t j 2) := embCol_eq t j
  simp only [Cert.Dist.blockDist, Cert.Dist.dist, Cert.Dist.sq, Cert.Dist.gram, hr, hc]
  rfl

/-- An index of the result array is in point `t`'s tile iff each coordinate is in the tile's range. -/
theorem mem_blk (t : Fin cfg0.N) (i : S8x4096x4096.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v1).slice (win0_2.rect t)).set ↔ _
  rw [View.set_slice_whole, Rect.mem_set_unit]
  exact Iff.rfl

/-- The tiles cover the result array: entry (b, n, m) is in the tile (b, n / 1024, m / 1024). -/
theorem cover (i : S8x4096x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run. -/
theorem final (c : Dev nD) : (dats m 0 c).arrAt 2 cfg0.N = Cert.Dist.dist (V m c main_v0) :=
  (dats m 0 c).arrAt_eq_of_cover 2 (Cert.Dist.dist (V m c main_v0)) (fun t _ => flushed_eq m c t) cover

/-- The slab the region reads is the reshape of the argument. -/
theorem V_main_v0 (c : Dev nD) :
    (V m c main_v0 : S8x256x4096.Idx → EReal)
      = shapeCast S8x256x4096 (m ((c.tc : Thread nD τ).loc main_arg0)) shapeCasts_S8x256x64x64_S8x256x4096 := by
  dsimp only [V, hostOps0]; after_results; rfl

/-- The run, read: the result array at the pairwise squared distances of the columns of the reshaped argument,
    the argument unchanged. -/
theorem run : θ_run defs (onTc (τ := τ) (main (F := Ideal))) ⟨m, fun _ => 0, ρ⟩ fun r => ∀ c : Dev nD,
      r.2.mem ((c.tc : Thread nD τ).loc main_v1)
        = Cert.Dist.dist (shapeCast S8x256x4096 (m ((c.tc : Thread nD τ).loc main_arg0)) shapeCasts_S8x256x64x64_S8x256x4096)
      ∧ r.2.mem ((c.tc : Thread nD τ).loc main_arg0) = m ((c.tc : Thread nD τ).loc main_arg0) :=
  (θ_run defs _ _).mono (fun r h c => ⟨((h c).1 2).trans ((final m c).trans (congrArg Cert.Dist.dist (V_main_v0 m c))),
      ((h c).2 main_arg0 (Pipeline.mem_restRefs_of main_arg0 rfl (by decide))).trans (V_main_arg0 m c)⟩)
    (run_main m ρ)

end Cert.KernelIdeal.HandValue

end
-- ==== Proof.RefIsDist.lean ====
/-
  The reference's result, read at an index, is the pairwise squared distance of the columns of its reshaped
  argument.
-/
import proofs.«101415_j14499809591877_1_alg».proof.Proof.Gen.ReferenceIdeal.Read
import proofs.«101415_j14499809591877_1_alg».proof.Proof.Spec
import Idealize.ShloMosaic.Lib.ValueIdx
import Idealize.ShloMosaic.PureOps.Ideal.Laws

noncomputable section

namespace Cert.Dist.Reference

open Idealize.ShloMosaic Idealize.ShloMosaic.ValueIdx Cert.ReferenceIdeal Cert.ReferenceIdeal.Read

/-- The transposed operand at (b, n, k) is the reshaped argument at (b, k, n). -/
theorem transposed_at (x0 : (⟨S8x256x64x64, .f32⟩ : BufTy).Contents (Elt Ideal)) (b : Fin 8) (n : Fin 4096) (k : Fin 256) :
    val_main_v1 (F := Ideal) x0 (ix3 b n k) = val_main_v0 (F := Ideal) x0 (ix3 b k n) := by
  rw [val_main_v1_apply]
  exact congrArg _ (funext fun a => Fin.ext (by match a with | ⟨0, _⟩ => rfl | ⟨1, _⟩ => rfl | ⟨2, _⟩ => rfl))

/-- The row sum of squares at (b, n) is the squared norm of column n of batch b: the sum starts from the zero
    word, which is 0 on the extended reals, and 0 + s = s there. -/
theorem sqnorm_at (x0 : (⟨S8x256x64x64, .f32⟩ : BufTy).Contents (Elt Ideal)) (b : Fin 8) (n : Fin 4096) :
    val_main_v3 (F := Ideal) x0 (ix2 b n) = Cert.Dist.sq (val_main_v0 (F := Ideal) x0) b n := by
  rw [val_main_v3_apply, val_main_cst_apply]
  simp only [Ideal.ofBits_def, Ideal.ofBits_zero_f32, zero_add]
  unfold Cert.Dist.sq
  refine Finset.sum_congr rfl fun k _ => ?_
  have e : idx_main_v3 (ix2 b n) k = ix3 b n k :=
    funext fun a => Fin.ext (by match a with | ⟨0, _⟩ => rfl | ⟨1, _⟩ => rfl | ⟨2, _⟩ => rfl)
  rw [e, val_main_v2_apply, transposed_at, Ideal.mulf_def]

/-- The batched product of the transposed operand with itself at (b, n, m) is the inner product of columns n
    and m of batch b. -/
theorem gram_at (x0 : (⟨S8x256x64x64, .f32⟩ : BufTy).Contents (Elt Ideal)) (b : Fin 8) (n m : Fin 4096) :
    val_main_v4 (F := Ideal) x0 (ix3 b n m) = Cert.Dist.gram (val_main_v0 (F := Ideal) x0) b n m := by
  rw [val_main_v4_apply]
  unfold Cert.Dist.gram
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er, transposed_at, transposed_at]

/-- At (b, n, m) the two broadcast norms are those of columns m and n, in that order; the specification adds
    them in the other order, and addition on the extended reals commutes. The factor 2.0 is the same word on
    both sides. -/
theorem result_eq (x0 : (⟨S8x256x64x64, .f32⟩ : BufTy).Contents (Elt Ideal)) :
    val_main_v12 (F := Ideal) x0 = Cert.Dist.dist (val_main_v0 (F := Ideal) x0) := by
  funext i
  obtain ⟨b, n, m, rfl⟩ : ∃ (b : Fin 8) (n m : Fin 4096), i = ix3 b n m := ⟨i 0, i 1, i 2, eq_ix3 i⟩
  have e5 : idx_main_v5 (idx_main_v7 (ix3 b n m)) = ix2 b m :=
    funext fun a => Fin.ext (by match a with | ⟨0, _⟩ => rfl | ⟨1, _⟩ => rfl)
  have e6 : idx_main_v6 (idx_main_v8 (ix3 b n m)) = ix2 b n :=
    funext fun a => Fin.ext (by match a with | ⟨0, _⟩ => rfl | ⟨1, _⟩ => rfl)
  rw [Cert.Dist.dist_ix3, val_main_v12_apply, val_main_v9_apply, val_main_v7_apply, val_main_v5_apply, e5,
    val_main_v8_apply, val_main_v6_apply, e6, sqnorm_at, sqnorm_at, val_main_v11_apply, val_main_v10_apply,
    val_main_cst_0_apply, gram_at]
  simp only [Ideal.ofBits_def, Ideal.addf_def, Ideal.subf_def, Ideal.mulf_def]
  rw [add_comm]

end Cert.Dist.Reference

end
-- ==== Proof.lean ====
/-
  Pairwise squared distances of the columns of a feature map, computed tile by tile, against the whole-array
  formula.

  The argument x : f32[8, 256, 64, 64] is reshaped to y : [8, 256, 4096]; for each batch b the 4096 columns of
  the slab y[b] are points of dimension 256. The kernel walks the grid 8 × 4 × 4: at (b, i, j) it reads column
  tiles i and j of the slab and stores, at (p, q) of the 1024 × 1024 output tile, |col p of tile i|² + |col q of
  tile j|² − 2·⟨col p, col q⟩ (the inner products through a matrix product of the two tiles, narrowed to bf16
  first, which is the identity on the extended reals). The reference transposes the slab, sums the squares of
  each point, takes the batched Gram matrix and forms |m|² + |n|² − 2·⟨n, m⟩ over the whole array. On the extended
  reals the two agree entry by entry: the tiles only regroup the same finite sums, the reference's sum starts
  from the literal 0, and the two squared norms are added in the other order (addition is commutative on the
  extended reals; no finiteness is needed, so the precondition is never opened).

  The three frames: both printed kernels run to the end with the argument untouched (one region, its two input
  windows sharing the slab in halves); the reference is straight-line host code. The ideal pass rewrote nothing,
  so the idealization claim has no conjunct.
-/
import proofs.«101415_j14499809591877_1_alg».proof.Defs
import proofs.«101415_j14499809591877_1_alg».proof.Proof.Gen.Kernel
import proofs.«101415_j14499809591877_1_alg».proof.Proof.Gen.KernelIdeal
import proofs.«101415_j14499809591877_1_alg».proof.Proof.Gen.ReferenceIdeal
import proofs.«101415_j14499809591877_1_alg».proof.Proof.Gen.ReferenceIdeal.Run
import proofs.«101415_j14499809591877_1_alg».proof.Proof.Gen.ReferenceIdeal.Read
import proofs.«101415_j14499809591877_1_alg».proof.Proof.Gen.Pre_finite_inputs
import proofs.«101415_j14499809591877_1_alg».proof.Proof.KLaunch
import proofs.«101415_j14499809591877_1_alg».proof.Proof.KIValue
import proofs.«101415_j14499809591877_1_alg».proof.Proof.RefIsDist
import Idealize.ShloMosaic.Adequacy
import Idealize.ShloMosaic.Init

noncomputable section

namespace Cert.Proof

open Idealize.ShloMosaic Idealize.ShloMosaic.TcCoe Idealize.SL.Sem

/-- The word-level kernel runs to the end and leaves its argument as launched. -/
theorem frame_kernel : Cert.frame_Kernel := fun m ρ _ => Cert.Kernel.Hand.frame m ρ

/-- So does its reading on the extended reals. -/
theorem frame_kernelIdeal : Cert.frame_KernelIdeal := fun m ρ _ => Cert.KernelIdeal.Hand.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied when the kernel was read on the extended reals. -/
theorem preserves : Cert.preserves_Kernel_KernelIdeal := trivial

/-- Both programs end with the result array at the pairwise squared distances of the columns of the reshaped
    argument: the kernel tile by tile, the reference by its whole-array formula. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.Dist.Reference.result_eq, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
